-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x256x512 .f32) (main_arg1 : FVec F S64x256x512 .f32) (main_arg2 : FVec F S1024x256 .f32) (main_arg3 : FVec F S256 .f32) (main_arg4 : FVec F S256x1 .f32) (main_arg5 : FVec F S1 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S64x1 : Shape := ⟨2, ![64, 1]⟩
abbrev S8x256x512 : Shape := ⟨3, ![8, 256, 512]⟩
abbrev S8x1 : Shape := ⟨2, ![8, 1]⟩
abbrev S2048x512 : Shape := ⟨2, ![2048, 512]⟩
abbrev S512x256 : Shape := ⟨2, ![512, 256]⟩
abbrev S2048x256 : Shape := ⟨2, ![2048, 256]⟩
abbrev S8x256x256 : Shape := ⟨3, ![8, 256, 256]⟩
abbrev S8x256 : Shape := ⟨2, ![8, 256]⟩
abbrev S1x256 : Shape := ⟨2, ![1, 256]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S64x1, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S1024x256, .f32⟩
  | .local _ .vmem, ⟨5, _⟩ => ⟨S256, .f32⟩
  | .local _ .vmem, ⟨6, _⟩ => ⟨S256x1, .f32⟩
  | .local _ .vmem, ⟨7, _⟩ => ⟨S1, .f32⟩
  | .local _ .vmem, ⟨8, _⟩ => ⟨S8x1, .f32⟩
  | .local _ .vmem, ⟨9, _⟩ => ⟨S8x1, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8x256x512_S8x256x512_0_0_0 : ∀ a, (![0, 0, 0] : Fin 3 → Nat) a + S8x256x512.size a ≤ S8x256x512.size a
  h_S8x256x512 : 0 < S8x256x512.numel
  bitsLt_bf16_f32 : FTy.bits .bf16 < FTy.bits .f32
  shapeCasts_S8x256x512_S2048x512 : S8x256x512.ShapeCasts S2048x512
  inb_S1024x256_S512x256_0_0 : ∀ a, (![0, 0] : Fin 2 → Nat) a + S512x256.size a ≤ S1024x256.size a
  h_S512x256 : 0 < S512x256.numel
  inb_S1024x256_S512x256_512_0 : ∀ a, (![512, 0] : Fin 2 → Nat) a + S512x256.size a ≤ S1024x256.size a
  shapeCasts_S2048x256_S8x256x256 : S2048x256.ShapeCasts S8x256x256
  reduces_S8x256x256_S8x256 : S8x256x256.Reduces [1] S8x256
  inb_S256_S256_0 : ∀ a, (![0] : Fin 1 → Nat) a + S256.size a ≤ S256.size a
  h_S256 : 0 < S256.numel
  shapeCasts_S256_S1x256 : S256.ShapeCasts S1x256
  broadcasts_S1x256_S8x256 : S1x256.Broadcasts S8x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S2048x512_S512x256_S2048x256_1_0_0_1_n_n_wf : DotDims.WF S2048x512 S512x256 S2048x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S64x256x512.size a
  hwx0_0 : ∀ i : grid0.Coords, EltTy.bits .f32 = 32 ∨ (Rect.block (s := S64x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S64x256x512.size a
  hwx0_1 : ∀ i : grid0.Coords, EltTy.bits .f32 = 32 ∨ (Rect.block (s := S64x256x512) S8x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S64x1.size a
  hwx0_6 : ∀ i : grid0.Coords, EltTy.bits .f32 = 32 ∨ (Rect.block (s := S64x1) S8x1.size (cc0_transform_6 i) (hinb0_6 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S512x256 : Shape := ⟨2, ![512, 256]⟩
abbrev S64x256x256 : Shape := ⟨3, ![64, 256, 256]⟩
abbrev S_ : Shape := ⟨0, ![]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x256x512, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S512x256, .f32⟩
  | .hbm, ⟨7, _⟩ => ⟨S512x256, .f32⟩
  | .hbm, ⟨8, _⟩ => ⟨S64x256x256, .f32⟩
  | .hbm, ⟨9, _⟩ => ⟨S64x256x256, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64x256, .f32⟩
  | .hbm, ⟨14, _⟩ => ⟨S64x256, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S1x256, .f32⟩
  | .hbm, ⟨22, _⟩ => ⟨S64x256, .f32⟩
  | .hbm, ⟨23, _⟩ => ⟨S64x256, .f32⟩
  | .hbm, ⟨24, _⟩ => ⟨S64x1, .f32⟩
  | .hbm, ⟨25, _⟩ => ⟨S1x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S_, .f32⟩
  | .hbm, ⟨34, _⟩ => ⟨S64x1, .f32⟩
  | .hbm, ⟨35, _⟩ => ⟨S64x1, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  slices_S1024x256_S512x256_0_0 : S1024x256.Slices ![0, 0] S512x256
  slices_S1024x256_S512x256_512_0 : S1024x256.Slices ![512, 0] S512x256
  reducesTo_S64x256x256_S64x256_d1 : S64x256x256.ReducesTo [1] S64x256
  h_S_ : 0 < S_.numel
  bcast_S_S64x256 : S_.BroadcastsInDim S64x256 (![] : Fin 0 → Fin S64x256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x256x512_S512x256_S64x256x256_2_0_01_1_n_n_wf : DotDims.WF S64x256x512 S512x256 S64x256x256 [2] [0] [0, 1] [1] [] []
  dot_S64x256_S256x1_S64x1_1_0_0_1_n_n_wf : DotDims.WF S64x256 S256x1 S64x1 [1] [0] [0] [1] [] []

variable [Facts₀]

def dot_S64x256x512_S512x256_S64x256x256_2_0_01_1_n_n : DotDims S64x256x512 S512x256 S64x256x256 where
  lhsContracting := [2]
  rhsContracting := [0]
  lhsNonContracting := [0, 1]
  rhsNonContracting := [1]
  lhsBatch := []
  rhsBatch := []
  wf := dot_S64x256x512_S512x256_S64x256x256_2_0_01_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.Spec.lean ====
/-
  The score of one batch row, as a function of the six arrays, over the extended reals.

  Two stacks of feature rows, O1 and O2, each [rows, 256, 512]. The 1024 x 256 weight matrix Wg is the upper band W1
  (its rows 0 to 511) over the lower band W2 (rows 512 to 1023). For batch row b and hidden unit h, the pooled
  projection of a stack A against a band W is the mean over the 256 positions n of the product of row (b, n) of A
  with column h of W:

      pooled A W b h = ( sum over n, sum over d, A(b, n, d) * W(d, h) ) / 256.

  The hidden vector is pooled O1 W1 + pooled O2 W2 + bg, the logit is its product with the one column of Wf plus the
  one entry of bf, and the score is the logistic function of the logit. Nothing in it depends on how many batch rows
  the stacks have, so the same function describes one 8-row block and the whole 64-row array; two stacks that agree
  on a row (whatever their heights and the row's number in each) give that row the same score.
-/
import Idealize.ShloMosaic.PureOps.Ideal
import Idealize.ShloMosaic.PureOps.Ideal.Laws
import Idealize.ShloMosaic.Lib.ValueIdx

noncomputable section

open scoped BigOperators

namespace Cert.PairScore

open Idealize.ShloMosaic Idealize.ShloMosaic.ValueIdx

/-- A stack of `nb` matrices of 256 rows and 512 columns. -/
abbrev Stack (nb : Nat) : Type := (⟨3, ![nb, 256, 512]⟩ : Shape).Idx → EReal
/-- One band of the weight matrix: 512 rows, 256 columns. -/
abbrev Band : Type := (⟨2, ![512, 256]⟩ : Shape).Idx → EReal
/-- The stacked weight matrix, the bias of the hidden layer, the output column and its bias. -/
abbrev Weights : Type := (⟨2, ![1024, 256]⟩ : Shape).Idx → EReal
abbrev HiddenBias : Type := (⟨1, ![256]⟩ : Shape).Idx → EReal
abbrev OutCol : Type := (⟨2, ![256, 1]⟩ : Shape).Idx → EReal
abbrev OutBias : Type := (⟨1, ![1]⟩ : Shape).Idx → EReal

/-- The mean over the 256 positions of (row (b, n) of `A`) · (column h of `W`); the divisor is the f32 word of 256. -/
def pooled {nb : Nat} (A : Stack nb) (W : Band) (b : Fin nb) (h : Fin 256) : EReal :=
  Ideal.div (∑ n : Fin 256, ∑ d : Fin 512, A (ix3 b n d) * W (ix2 d h)) (Ideal.ofBits .f32 0x43800000#32)

/-- The logit of batch row `b`: the hidden vector against the output column, plus the output bias. -/
def logit {nb : Nat} (A1 A2 : Stack nb) (W1 W2 : Band) (bg : HiddenBias) (Wf : OutCol) (bf : OutBias) (b : Fin nb) : EReal :=
  (∑ h : Fin 256, (pooled A1 W1 b h + pooled A2 W2 b h + bg (ix1 h)) * Wf (ix2 h (0 : Fin 1))) + bf (ix1 (0 : Fin 1))

/-- The score of batch row `b`. -/
def score {nb : Nat} (A1 A2 : Stack nb) (W1 W2 : Band) (bg : HiddenBias) (Wf : OutCol) (bf : OutBias) (b : Fin nb) : EReal :=
  Ideal.logistic (logit A1 A2 W1 W2 bg Wf bf b)

/-- Rows 0 to 511 of the stacked weight matrix. -/
def upper (Wg : Weights) : Band := fun j => Wg (ix2 ⟨(j 0).val, by have h : (j 0).val < 512 := (j 0).isLt; omega⟩ (j 1))
/-- Rows 512 to 1023 of the stacked weight matrix. -/
def lower (Wg : Weights) : Band := fun j => Wg (ix2 ⟨512 + (j 0).val, by have h : (j 0).val < 512 := (j 0).isLt; omega⟩ (j 1))

/-- The whole result: entry (B, 0) is the score of batch row B of the two 64-row stacks. -/
def result (O1 O2 : Stack 64) (Wg : Weights) (bg : HiddenBias) (Wf : OutCol) (bf : OutBias) :
    (⟨2, ![64, 1]⟩ : Shape).Idx → EReal :=
  fun i => score O1 O2 (upper Wg) (lower Wg) bg Wf bf (i 0)

/-- Two pairs of stacks that agree on one row each (row `b` of the first pair is row `b'` of the second), scored with
    the same bands, biases and output column, give that row one score: the score reads nothing else of the stacks. -/
theorem score_congr {nb nb' : Nat} (A1 A2 : Stack nb) (A1' A2' : Stack nb') (W1 W2 W1' W2' : Band) (bg bg' : HiddenBias)
    (Wf Wf' : OutCol) (bf bf' : OutBias) (b : Fin nb) (b' : Fin nb')
    (h1 : ∀ n d, A1 (ix3 b n d) = A1' (ix3 b' n d)) (h2 : ∀ n d, A2 (ix3 b n d) = A2' (ix3 b' n d))
    (hW1 : W1 = W1') (hW2 : W2 = W2') (hbg : bg = bg') (hWf : Wf = Wf') (hbf : bf = bf') :
    score A1 A2 W1 W2 bg Wf bf b = score A1' A2' W1' W2' bg' Wf' bf' b' := by
  subst hW1 hW2 hbg hWf hbf
  unfold score logit pooled
  simp only [h1, h2]

end Cert.PairScore

end
-- ==== Proof.RefScore.lean ====
/-
  The reference computes the specified result.

  Read one operation at a time, the reference slices the weight matrix into its two bands, multiplies each stack by
  its band (contracting the 512 features), sums each product over the 256 positions starting from zero, divides by
  256, adds the two means and the hidden bias, multiplies by the output column, adds the output bias, and applies
  1 / (1 + exp (-x)). Index by index this is the score of the batch row: zero plus a sum is the sum, the two slices
  are the upper and lower band, and 1 / (1 + exp (-x)) with the f32 word of 1 for both ones is the logistic function
  as the extended reals define it.
-/
import proofs.«121802_j34686155882576_1_alg».proof.Proof.Gen.ReferenceIdeal.Read
import proofs.«121802_j34686155882576_1_alg».proof.Proof.Spec
import Idealize.ShloMosaic.Lib.IdealHost

noncomputable section

open scoped BigOperators

namespace Cert.ReferenceIdeal.Score

open Cert.ReferenceIdeal Cert.ReferenceIdeal.Read Cert.PairScore
open Idealize.ShloMosaic Idealize.ShloMosaic.ValueIdx

variable (x0 x1 : Stack 64) (x2 : Weights) (x3 : HiddenBias) (x4 : OutCol) (x5 : OutBias)

/-- Entry (b, n, h) of the first product reads row (b, n) of the stack ... -/
theorem lhs_first (b : Fin 64) (h : Fin 256) (n : Fin 256) (d : Fin 512) :
    lidx_main_v2 (idx_main_v4 (ix2 b h) n) d = ix3 b n d :=
  funext fun a => Fin.ext (by match a with | ⟨0, _⟩ => rfl | ⟨1, _⟩ => rfl | ⟨2, _⟩ => rfl)

/-- ... against column h of the upper band. -/
theorem rhs_first (b : Fin 64) (h : Fin 256) (n : Fin 256) (d : Fin 512) :
    x2 (idx_main_v0 (ridx_main_v2 (idx_main_v4 (ix2 b h) n) d)) = upper x2 (ix2 d h) :=
  congrArg x2 (funext fun a => Fin.ext (by match a with | ⟨0, _⟩ => rfl | ⟨1, _⟩ => rfl))

/-- The same for the second product: row (b, n) of the second stack ... -/
theorem lhs_second (b : Fin 64) (h : Fin 256) (n : Fin 256) (d : Fin 512) :
    lidx_main_v3 (idx_main_v7 (ix2 b h) n) d = ix3 b n d :=
  funext fun a => Fin.ext (by match a with | ⟨0, _⟩ => rfl | ⟨1, _⟩ => rfl | ⟨2, _⟩ => rfl)

/-- ... against column h of the lower band. -/
theorem rhs_second (b : Fin 64) (h : Fin 256) (n : Fin 256) (d : Fin 512) :
    x2 (idx_main_v1 (ridx_main_v3 (idx_main_v7 (ix2 b h) n) d)) = lower x2 (ix2 d h) :=
  congrArg x2 (funext fun a => Fin.ext (by match a with | ⟨0, _⟩ => rfl | ⟨1, _⟩ => rfl))

/-- The reference's mean of the first product over the positions is the pooled projection against the upper band. -/
theorem mean_first (b : Fin 64) (h : Fin 256) :
    val_main_v6 (F := Ideal) x0 x2 (ix2 b h) = pooled x0 (upper x2) b h := by
  rw [val_main_v6_apply, val_main_v4_apply, val_main_v5_apply, val_main_cst_0_apply, val_main_cst_apply]
  simp only [val_main_v2_apply, val_main_v0_apply, Ideal.hostDivf_def, Ideal.ofBits_def, Ideal.ofBits_zero_f32, zero_add,
    lhs_first, rhs_first]
  rfl

/-- The reference's mean of the second product is the pooled projection against the lower band. -/
theorem mean_second (b : Fin 64) (h : Fin 256) :
    val_main_v9 (F := Ideal) x1 x2 (ix2 b h) = pooled x1 (lower x2) b h := by
  rw [val_main_v9_apply, val_main_v7_apply, val_main_v8_apply, val_main_cst_2_apply, val_main_cst_1_apply]
  simp only [val_main_v3_apply, val_main_v1_apply, Ideal.hostDivf_def, Ideal.ofBits_def, Ideal.ofBits_zero_f32, zero_add,
    lhs_second, rhs_second]
  rfl

/-- The hidden vector at (b, h): the two means and the bias of unit h. -/
theorem hidden_eq (b : Fin 64) (h : Fin 256) :
    val_main_v13 (F := Ideal) x0 x1 x2 x3 (ix2 b h) = pooled x0 (upper x2) b h + pooled x1 (lower x2) b h + x3 (ix1 h) := by
  rw [val_main_v13_apply, val_main_v10_apply, val_main_v12_apply, val_main_v11_apply, mean_first, mean_second]
  simp only [Ideal.addf_def]
  exact congrArg (_ + x3 ·) (funext fun a => Fin.ext (by match a with | ⟨0, _⟩ => rfl))

/-- The reference's result is the specified one. -/
theorem result_eq : val_main_v23 (F := Ideal) x0 x1 x2 x3 x4 x5 = result x0 x1 x2 x3 x4 x5 := by
  funext i
  obtain ⟨B, u, rfl⟩ : ∃ (B : Fin 64) (u : Fin 1), i = ix2 B u := ⟨i 0, i 1, eq_ix2 i⟩
  have hl : ∀ k : Fin 256, lidx_main_v14 (ix2 B u) k = ix2 B k := fun k =>
    funext fun a => Fin.ext (by match a with | ⟨0, _⟩ => rfl | ⟨1, _⟩ => rfl)
  have hr : ∀ k : Fin 256, ridx_main_v14 (ix2 B u) k = ix2 k (0 : Fin 1) := fun k =>
    funext fun a => Fin.ext (by
      match a with
      | ⟨0, _⟩ => rfl
      | ⟨1, _⟩ => show u.val = 0; omega)
  have hb : idx_main_v15 (idx_main_v16 (ix2 B u)) = ix1 (0 : Fin 1) :=
    funext fun a => Fin.ext (by match a with | ⟨0, _⟩ => rfl)
  rw [val_main_v23_apply, val_main_v22_apply, val_main_cst_4_apply, val_main_v21_apply, val_main_v20_apply,
    val_main_cst_3_apply, val_main_v19_apply, val_main_v18_apply, val_main_v17_apply, val_main_v14_apply,
    val_main_v16_apply, val_main_v15_apply, hb]
  simp only [hl, hr, hidden_eq, Ideal.hostDivf_def, Ideal.ofBits_def, Ideal.ofBits_one_f32, Ideal.addf_def,
    Ideal.hostUnary_exp_def, Ideal.hostNegf_def, Ideal.negf_def]
  rfl

end Cert.ReferenceIdeal.Score

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.KernelScore.lean ====
/-
  What the kernel's body writes for one block of eight batch rows.

  The body flattens each 8 x 256 x 512 block to 2048 rows of 512 features, multiplies it by a band of the weight
  matrix into a zero accumulator, and views the 2048 x 256 product as 8 x 256 x 256 again: entry (b, n, h) of that is
  row 256 b + n of the product at column h, the sum over the 512 features d of block(b, n, d) * band(d, h). The sum
  over n from the neutral accumulator, divided by the f32 word of 256, is the pooled projection. The hidden bias is
  laid out as one row and copied down the eight rows, so at (b, h) it reads the bias of unit h; the output bias, one
  entry, is copied down the one column. The second product, 8 x 256 against 256 x 1 into zero, is the sum over the
  hidden units; the changes of float format between the steps are the identity on the extended reals. So at (b, 0)
  the body's value is the score of row b of the block.
-/
import proofs.«121802_j34686155882576_1_alg».proof.Proof.Gen.KernelIdeal.Frame
import proofs.«121802_j34686155882576_1_alg».proof.Proof.Spec
import proofs.«121802_j34686155882576_1_alg».proof.Proof.LibSageSpec
import Idealize.ShloMosaic.Lib.Pipeline.Value
import Idealize.ShloMosaic.Lib.ValueLayout
import Idealize.ShloMosaic.Lib.IdealHost

noncomputable section

open scoped BigOperators

namespace Cert.KernelIdeal.Score

open Cert.KernelIdeal Cert.KernelIdeal.Gen Cert.PairScore
open Idealize.ShloMosaic Idealize.ShloMosaic.ValueIdx Idealize.ShloMosaic.SageSpec

/-! ## The two products are plain rows-by-columns products -/

theorem big_l0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem big_l1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem big_r0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem big_r1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The 2048 x 512 by 512 x 256 product contracts the features. -/
theorem plainBig : PlainDot (n := 2048) (k := 512) (m := 256) dot_S2048x512_S512x256_S2048x256_1_0_0_1_n_n :=
  ⟨rfl, fun _ => rfl, big_l0, fun i q _ => big_l1 i q, fun i q _ => big_r0 i q, big_r1⟩

theorem small_l0 (i : S8x1.Idx) (q : dot_S8x256_S256x1_S8x1_1_0_0_1_n_n.contr.Idx) :
    (dot_S8x256_S256x1_S8x1_1_0_0_1_n_n.lhsIdx i q 0).val = (i 0).val := by
  unfold DotDims.lhsIdx
  rw [dif_neg (show ¬(0 : Fin S8x256.rank) ∈ dot_S8x256_S256x1_S8x1_1_0_0_1_n_n.lhsBatch by decide), dif_pos (show (0 : Fin S8x256.rank) ∈ dot_S8x256_S256x1_S8x1_1_0_0_1_n_n.lhsNonContracting by decide)]
  rfl
theorem small_l1 (i : S8x1.Idx) (q : dot_S8x256_S256x1_S8x1_1_0_0_1_n_n.contr.Idx) :
    (dot_S8x256_S256x1_S8x1_1_0_0_1_n_n.lhsIdx i q 1).val = (q ⟨0, by decide⟩).val :=
  dot_S8x256_S256x1_S8x1_1_0_0_1_n_n.lhsIdx_val_of_single rfl i q
theorem small_r0 (i : S8x1.Idx) (q : dot_S8x256_S256x1_S8x1_1_0_0_1_n_n.contr.Idx) :
    (dot_S8x256_S256x1_S8x1_1_0_0_1_n_n.rhsIdx i q 0).val = (q ⟨0, by decide⟩).val :=
  dot_S8x256_S256x1_S8x1_1_0_0_1_n_n.rhsIdx_val_of_single rfl i q
theorem small_r1 (i : S8x1.Idx) (q : dot_S8x256_S256x1_S8x1_1_0_0_1_n_n.contr.Idx) :
    (dot_S8x256_S256x1_S8x1_1_0_0_1_n_n.rhsIdx i q 1).val = (i 1).val := by
  unfold DotDims.rhsIdx
  rw [dif_neg (show ¬(1 : Fin S256x1.rank) ∈ dot_S8x256_S256x1_S8x1_1_0_0_1_n_n.rhsBatch by decide), dif_pos (show (1 : Fin S256x1.rank) ∈ dot_S8x256_S256x1_S8x1_1_0_0_1_n_n.rhsNonContracting by decide)]
  rfl

/-- The 8 x 256 by 256 x 1 product contracts the hidden units. -/
theorem plainSmall : PlainDot (n := 8) (k := 256) (m := 1) dot_S8x256_S256x1_S8x1_1_0_0_1_n_n :=
  ⟨rfl, fun _ => rfl, small_l0, fun i q _ => small_l1 i q, fun i q _ => small_r0 i q, small_r1⟩

/-! ## The stages, each read at an index -/

/-- The product of the flattened block with a band, viewed as 8 x 256 x 256, at (b, n, h): row (b, n) of the block
    against column h of the band. -/
theorem proj_at (v : Vec Ideal S8x256x512 .f32) (w : Vec Ideal S512x256 .f32) (b : Fin 8) (n : Fin 256) (h : Fin 256) :
    shapeCast S8x256x256 (matmul dot_S2048x512_S512x256_S2048x256_1_0_0_1_n_n none
        (shapeCast S2048x512 (truncf .bf16 v bitsLt_bf16_f32) shapeCasts_S8x256x512_S2048x512) (truncf .bf16 w bitsLt_bf16_f32)
        (constant (F := Ideal) S2048x256 .f32 0x00000000#32)) shapeCasts_S2048x256_S8x256x256 (ix3 b n h)
      = ∑ d : Fin 512, v (ix3 b n d) * w (ix2 d h) := by
  have hb : b.val < 8 := b.isLt
  have hn : n.val < 256 := n.isLt
  have hr : 256 * b.val + n.val < 2048 := by omega
  rw [shapeCast_apply _ shapeCasts_S2048x256_S8x256x256 (ix3 b n h) (ix2 ⟨256 * b.val + n.val, hr⟩ h) (by
    rw [Shape.rowMajor_val_two, Shape.rowMajor_val_three]
    show (256 * b.val + n.val) * 256 + h.val = (b.val * 256 + n.val) * 256 + h.val
    omega)]
  simp only [matmul]
  rw [matmul_zero_at plainBig]
  unfold rowDot
  refine Finset.sum_congr rfl fun d _ => ?_
  refine congrArg₂ (· * ·) ?_ rfl
  exact shapeCast_apply _ shapeCasts_S8x256x512_S2048x512 (ix2 ⟨256 * b.val + n.val, hr⟩ d) (ix3 b n d) (by
    rw [Shape.rowMajor_val_two, Shape.rowMajor_val_three]
    show (b.val * 256 + n.val) * 512 + d.val = (256 * b.val + n.val) * 512 + d.val
    omega)

/-- The sum over the positions, from the neutral accumulator, at (b, h). -/
theorem laneSum_at (X : FVec Ideal S8x256x256 .f32) (b : Fin 8) (h : Fin 256) :
    multiReduction .add [1] S8x256 X 0x00000000#32 reduces_S8x256x256_S8x256 (.inl rfl) rfl (ix2 b h) = ∑ n : Fin 256, X (ix3 b n h) :=
  (Ideal.multiReduction_add_single X _ reduces_S8x256x256_S8x256 (.inl rfl) rfl (ix2 b h)).trans
    (Finset.sum_congr rfl fun n _ => congrArg X (funext fun a => Fin.ext (by
      match a with
      | ⟨0, _⟩ => rfl
      | ⟨1, _⟩ => rfl
      | ⟨2, _⟩ => rfl)))

/-- The mean of the product over the positions is the pooled projection. -/
theorem pooled_at (v : Vec Ideal S8x256x512 .f32) (w : Vec Ideal S512x256 .f32) (b : Fin 8) (h : Fin 256) :
    divf (multiReduction .add [1] S8x256 (shapeCast S8x256x256 (matmul dot_S2048x512_S512x256_S2048x256_1_0_0_1_n_n none
        (shapeCast S2048x512 (truncf .bf16 v bitsLt_bf16_f32) shapeCasts_S8x256x512_S2048x512) (truncf .bf16 w bitsLt_bf16_f32)
        (constant (F := Ideal) S2048x256 .f32 0x00000000#32)) shapeCasts_S2048x256_S8x256x256) 0x00000000#32 reduces_S8x256x256_S8x256 (.inl rfl) rfl)
      (broadcast S8x256 (Scalar.ofBits (F := Ideal) .f32 0x43800000#32)) (ix2 b h) = pooled v w b h := by
  rw [divf_apply, laneSum_at]
  unfold pooled
  simp only [proj_at]
  rfl

/-- The hidden bias, laid out as one row and copied down the rows, at (b, h). -/
theorem bias_at (v21 : Vec Ideal S256 .f32) (b : Fin 8) (h : Fin 256) :
    broadcastTo S8x256 (shapeCast S1x256 v21 shapeCasts_S256_S1x256) broadcasts_S1x256_S8x256 (ix2 b h) = v21 (ix1 h) := by
  rw [broadcastTo_1b_ab_apply, shapeCast_a_1a_apply]

/-- The output bias, one entry copied down the column, at (b, 0). -/
theorem outBias_at (v29 : Vec Ideal S1 .f32) (b : Fin 8) :
    broadcastTo S8x1 (shapeCast S1x1 v29 shapeCasts_S1_S1x1) broadcasts_S1x1_S8x1 (ix2 b (0 : Fin 1)) = v29 (ix1 (0 : Fin 1)) := by
  rw [broadcastTo_1b_ab_apply, shapeCast_a_1a_apply]

/-! ## The body's value at (b, 0) -/

/-- The body's one stored value, at row b of the block, is the score of that row of the loaded blocks. -/
theorem pay_at (v0 v3 : Vec Ideal S8x256x512 .f32) (v6 v8 : Vec Ideal S512x256 .f32) (v21 : Vec Ideal S256 .f32)
    (v26 : Vec Ideal S256x1 .f32) (v29 : Vec Ideal S1 .f32) (b : Fin 8) (u : Fin 1) :
    k0_pay1 (F := Ideal) v0 v3 v6 v8 v21 v26 v29 (ix2 b u) = score v0 v3 v6 v8 v21 v26 v29 b := by
  obtain rfl : u = 0 := Subsingleton.elim _ _
  unfold k0_pay1
  dsimp only
  refine (congrArg Ideal.logistic (congrArg₂ (· + ·)
    (matmul_zero_at plainSmall none _ _ (ix2 b (0 : Fin 1))) (outBias_at v29 b))).trans ?_
  unfold rowDot score logit
  refine congrArg (fun z => Ideal.logistic (z + v29 (ix1 (0 : Fin 1)))) (Finset.sum_congr rfl fun h _ => ?_)
  refine congrArg₂ (· * ·) ?_ rfl
  exact congrArg₂ (· + ·) (congrArg₂ (· + ·) (pooled_at v0 v6 b h) (pooled_at v3 v8 b h)) (bias_at v21 b h)

/-! ## The block the body leaves in the output window's buffer -/

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's first load of the weight block reads its rows 0 to 511: the upper band. -/
theorem ld_upper (x2 : Vec Ideal S1024x256 .f32) : View.ld x2 r0_1 = upper x2 := by
  funext y
  refine congrArg x2 (funext fun a => Fin.ext ?_)
  match a with
  | ⟨0, _⟩ => show 0 + 1 * (y 0).val = (y 0).val; omega
  | ⟨1, _⟩ => show 0 + 1 * (y 1).val = (y 1).val; omega

/-- Its second load reads rows 512 to 1023: the lower band. -/
theorem ld_lower (x2 : Vec Ideal S1024x256 .f32) : View.ld x2 r0_2 = lower x2 := by
  funext y
  refine congrArg x2 (funext fun a => Fin.ext ?_)
  match a with
  | ⟨0, _⟩ => show 512 + 1 * (y 0).val = 512 + (y 0).val; omega
  | ⟨1, _⟩ => show 0 + 1 * (y 1).val = (y 1).val; omega

/-- After the body, the output window's 8 x 1 buffer holds at (b, 0) the score of row b of the two stack blocks,
    against the two bands of the weight block. -/
theorem block_score (x0 x1 : Vec Ideal S8x256x512 .f32) (x2 : Vec Ideal S1024x256 .f32) (x3 : Vec Ideal S256 .f32)
    (x4 : Vec Ideal S256x1 .f32) (x5 : Vec Ideal S1 .f32) (b : Fin 8) (u : Fin 1) :
    out0_6 x0 x1 x2 x3 x4 x5 (ix2 b u) = score x0 x1 (upper x2) (lower x2) x3 x4 x5 b := by
  unfold out0_6
  rw [View.canon_unit_zero zeros2]
  simp only [View.ld_unit_zero (S := S8x256x512) zeros3, View.ld_unit_zero (S := S256) zeros1,
    View.ld_unit_zero (S := S256x1) zeros2, View.ld_unit_zero (S := S1) zeros1, ld_upper, ld_lower]
  exact pay_at x0 x1 (upper x2) (lower x2) x3 x4 x5 b u

/-- The same at any index of the buffer: its row's score. -/
theorem block_score_idx (x0 x1 : Vec Ideal S8x256x512 .f32) (x2 : Vec Ideal S1024x256 .f32) (x3 : Vec Ideal S256 .f32)
    (x4 : Vec Ideal S256x1 .f32) (x5 : Vec Ideal S1 .f32) (y : S8x1.Idx) :
    out0_6 x0 x1 x2 x3 x4 x5 y = score x0 x1 (upper x2) (lower x2) x3 x4 x5 (y 0) := by
  obtain ⟨b, u, rfl⟩ : ∃ (b : Fin 8) (u : Fin 1), y = ix2 b u := ⟨y 0, y 1, eq_ix2 y⟩
  exact block_score x0 x1 x2 x3 x4 x5 b u

end Cert.KernelIdeal.Score

end
-- ==== Proof.KernelArray.lean ====
/-
  From the blocks to the array.

  The grid has eight points. At point t the two stacks' windows hold batch rows 8 t to 8 t + 7, the weight matrix,
  the two biases and the output column are each one block that is the whole array, and the output window's block is
  rows 8 t to 8 t + 7 of the 64 x 1 result. So what point t writes back, at row b of its block, is the score of batch
  row 8 t + b of the whole stacks: block t of the specified result. Row B of the result lies in the block of point
  B / 8, the eight blocks cover the array, and the result array ends holding the specified result.
-/
import proofs.«121802_j34686155882576_1_alg».proof.Proof.Gen.KernelIdeal.Value
import proofs.«121802_j34686155882576_1_alg».proof.Proof.KernelScore

set_option maxRecDepth 16384

noncomputable section

namespace Cert.KernelIdeal.Whole

open Cert.KernelIdeal Cert.KernelIdeal.Gen Cert.KernelIdeal.Value Cert.KernelIdeal.Score Cert.PairScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block indices at point t: the stacks and the result move with t on the batch axis, everything else stays at
    block zero (decided over the eight points). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The specified result of the argument arrays as the region finds them. -/
abbrev whole (c : Dev nD) : S64x1.Idx → EReal :=
  result (V m c main_arg0) (V m c main_arg1) (V m c main_arg2) (V m c main_arg3) (V m c main_arg4) (V m c main_arg5)

/-- The weight matrix's one block is the matrix. -/
theorem weights_block (c : Dev nD) (t : Fin cfg0.N) : (iblk m c 2 t : Weights) = V m c main_arg2 := by
  obtain ⟨-, -, -, -, -, -, e0, e1, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1024 + 1 * (y 0).val = (y 0).val; omega
  | ⟨1, _⟩ => show win0_2.index t (1 : Fin 2) * 256 + 1 * (y 1).val = (y 1).val; omega

/-- The hidden bias's one block is the bias. -/
theorem hiddenBias_block (c : Dev nD) (t : Fin cfg0.N) : (iblk m c 3 t : HiddenBias) = V m c main_arg3 := by
  obtain ⟨-, -, -, -, -, -, -, -, e0, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 256 + 1 * (y 0).val = (y 0).val; omega

/-- The output column's one block is the column. -/
theorem outCol_block (c : Dev nD) (t : Fin cfg0.N) : (iblk m c 4 t : OutCol) = V m c main_arg4 := by
  obtain ⟨-, -, -, -, -, -, -, -, -, e0, e1, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega

/-- The output bias's one block is the bias. -/
theorem outBias_block (c : Dev nD) (t : Fin cfg0.N) : (iblk m c 5 t : OutBias) = V m c main_arg5 := by
  obtain ⟨-, -, -, -, -, -, -, -, -, -, -, e0, -⟩ := index_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 1 + 1 * (y 0).val = (y 0).val; omega

/-- WHAT POINT t WRITES BACK is block t of the specified result. -/
theorem flushed_eq (c : Dev nD) (t : Fin cfg0.N) :
    (dats m 0 c).flushed 6 t = ((cfg0.win 6).blk t).view.read (Elt Ideal) (whole m c) := by
  obtain ⟨a0, a1, a2, b0, b1, b2, -, -, -, -, -, -, o0, o1⟩ := index_facts t
  rw [flushed6]
  funext j
  show out0_6 (iblk m c 0 t) (iblk m c 1 t) (iblk m c 2 t) (iblk m c 3 t) (iblk m c 4 t) (iblk m c 5 t) j
    = whole m c (((cfg0.win 6).blk t).view.emb j)
  refine (block_score_idx (iblk m c 0 t) (iblk m c 1 t) (iblk m c 2 t) (iblk m c 3 t) (iblk m c 4 t) (iblk m c 5 t) j).trans ?_
  refine score_congr (nb := 8) (nb' := 64) (iblk m c 0 t) (iblk m c 1 t) (V m c main_arg0) (V m c main_arg1) _ _ _ _ _ _ _ _ _ _
    (j 0) ((((cfg0.win 6).blk t).view.emb j) 0) ?_ ?_
    (congrArg upper (weights_block m c t)) (congrArg lower (weights_block m c t))
    (hiddenBias_block m c t) (outCol_block m c t) (outBias_block m c t)
  · intro n d
    show V m c main_arg0 (((cfg0.win 0).blk t).view.emb (ix3 (j 0) n d)) = V m c main_arg0 (ix3 ((((cfg0.win 6).blk t).view.emb j) 0) n d)
    refine congrArg (V m c main_arg0) (funext fun a => Fin.ext ?_)
    match a with
    | ⟨0, _⟩ => show win0_0.index t (0 : Fin 3) * 8 + 1 * (j 0).val = win0_6.index t (0 : Fin 2) * 8 + 1 * (j 0).val; omega
    | ⟨1, _⟩ => show win0_0.index t (1 : Fin 3) * 256 + 1 * n.val = n.val; omega
    | ⟨2, _⟩ => show win0_0.index t (2 : Fin 3) * 512 + 1 * d.val = d.val; omega
  · intro n d
    show V m c main_arg1 (((cfg0.win 1).blk t).view.emb (ix3 (j 0) n d)) = V m c main_arg1 (ix3 ((((cfg0.win 6).blk t).view.emb j) 0) n d)
    refine congrArg (V m c main_arg1) (funext fun a => Fin.ext ?_)
    match a with
    | ⟨0, _⟩ => show win0_1.index t (0 : Fin 3) * 8 + 1 * (j 0).val = win0_6.index t (0 : Fin 2) * 8 + 1 * (j 0).val; omega
    | ⟨1, _⟩ => show win0_1.index t (1 : Fin 3) * 256 + 1 * n.val = n.val; omega
    | ⟨2, _⟩ => show win0_1.index t (2 : Fin 3) * 512 + 1 * d.val = d.val; omega

/-- An index of the result lies in point t's block iff each coordinate lies in the block's range on its axis. -/
theorem mem_block (t : Fin cfg0.N) (i : S64x1.Idx) :
    i ∈ ((cfg0.win 6).blk t).view.set ↔ ∀ a : Fin 2, win0_6.index t a * S8x1.size a ≤ (i a).val ∧ (i a).val < win0_6.index t a * S8x1.size a + S8x1.size a := by
  show i ∈ ((View.whole main_v0).slice (win0_6.rect t)).set ↔ _
  rw [View.set_slice_whole, Rect.mem_set_unit]
  exact Iff.rfl

/-- Row B of the result lies in the block of point B / 8. -/
theorem covered (i : S64x1.Idx) : ∃ t : Fin cfg0.N, (cfg0.win 6).flush t = true ∧ i ∈ ((cfg0.win 6).blk t).view.set := by
  have hi0 : (i 0).val < 64 := (i 0).isLt
  have hi1 : (i 1).val < 1 := (i 1).isLt
  have hN : cfg0.N = 8 := rfl
  refine ⟨⟨(i 0).val / 8, by rw [hN]; omega⟩, flush0_6 _, ?_⟩
  obtain ⟨-, -, -, -, -, -, -, -, -, -, -, -, o0, o1⟩ := index_facts ⟨(i 0).val / 8, by rw [hN]; omega⟩
  rw [mem_block]
  intro a
  match a with
  | ⟨0, _⟩ =>
    show win0_6.index ⟨(i 0).val / 8, _⟩ (0 : Fin 2) * 8 ≤ (i 0).val ∧ (i 0).val < win0_6.index ⟨(i 0).val / 8, _⟩ (0 : Fin 2) * 8 + 8
    rw [o0]
    show (i 0).val / 8 * 8 ≤ (i 0).val ∧ (i 0).val < (i 0).val / 8 * 8 + 8
    omega
  | ⟨1, _⟩ =>
    show win0_6.index ⟨(i 0).val / 8, _⟩ (1 : Fin 2) * 1 ≤ (i 1).val ∧ (i 1).val < win0_6.index ⟨(i 0).val / 8, _⟩ (1 : Fin 2) * 1 + 1
    rw [o1]
    omega

/-- THE ARRAY after the run is the specified result of the argument arrays. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 (whole m c) (fun t _ => flushed_eq m c t) covered

/-- The run, read: the result array ends at the specified result, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  A pooled pair classifier: the kernel against its reference, over the extended reals.

  Inputs: two stacks O1, O2 of 64 batch rows, each row 256 positions by 512 features; a 1024 x 256 weight matrix Wg whose
  rows 0 to 511 (the upper band) act on O1 and whose rows 512 to 1023 (the lower band) act on O2; a hidden bias bg of
  256 entries; an output column Wf (256 x 1) and its bias bf. For batch row B the result is

      logistic( sum over h of ( mean_n (O1[B,n,:] · upper[:,h]) + mean_n (O2[B,n,:] · lower[:,h]) + bg[h] ) * Wf[h,0] + bf[0] ),

  the means taken over the 256 positions as a sum divided by 256.

  The kernel runs a grid of eight points, eight batch rows at a time: it flattens each 8 x 256 x 512 block to 2048
  rows, multiplies by the band into a zero accumulator, sums over the positions, divides by 256, adds the bias,
  multiplies by the output column into zero, adds the output bias and applies the logistic function. The reference does
  the same over all 64 rows at once with a batched product, and spells the logistic function as 1 / (1 + exp (-x)).
  Over the extended reals a change of float format is the identity, a product into a zero accumulator and a sum from
  zero are plain sums, both programs divide by the same word 256 and group the sums alike, and the logistic function
  is 1 / (1 + exp (-x)) by definition; so both programs end with the one function `Cert.PairScore.result` of the
  argument arrays, and no law that needs finite inputs is used.

  Proof/Spec.lean states that function; Proof/RefScore.lean reads the reference's run as it, one operation at a time;
  Proof/KernelScore.lean reads the kernel body's stored value at a row as the row's score; Proof/KernelArray.lean goes
  from the eight blocks to the array. The frames of the two kernel programs are the generated ones, the reference's
  frame is its run with the result dropped, and the idealization rewrote nothing, so its conjunct is trivial.
-/
import proofs.«121802_j34686155882576_1_alg».proof.Defs
import proofs.«121802_j34686155882576_1_alg».proof.Proof.Gen.Kernel
import proofs.«121802_j34686155882576_1_alg».proof.Proof.Gen.Kernel.Skeleton
import proofs.«121802_j34686155882576_1_alg».proof.Proof.Gen.Kernel.Launch
import proofs.«121802_j34686155882576_1_alg».proof.Proof.Gen.Kernel.Points
import proofs.«121802_j34686155882576_1_alg».proof.Proof.Gen.Kernel.Frame
import proofs.«121802_j34686155882576_1_alg».proof.Proof.Gen.KernelIdeal
import proofs.«121802_j34686155882576_1_alg».proof.Proof.Gen.KernelIdeal.Skeleton
import proofs.«121802_j34686155882576_1_alg».proof.Proof.Gen.KernelIdeal.Launch
import proofs.«121802_j34686155882576_1_alg».proof.Proof.Gen.KernelIdeal.Points
import proofs.«121802_j34686155882576_1_alg».proof.Proof.Gen.KernelIdeal.Frame
import proofs.«121802_j34686155882576_1_alg».proof.Proof.Gen.ReferenceIdeal
import proofs.«121802_j34686155882576_1_alg».proof.Proof.Gen.Pre_finite_inputs
import proofs.«121802_j34686155882576_1_alg».proof.Proof.Gen.KernelIdeal.Value
import proofs.«121802_j34686155882576_1_alg».proof.Proof.Gen.ReferenceIdeal.Run
import proofs.«121802_j34686155882576_1_alg».proof.Proof.Gen.ReferenceIdeal.Read
import proofs.«121802_j34686155882576_1_alg».proof.Proof.RefScore
import proofs.«121802_j34686155882576_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the specified result of those arguments:
    the kernel's array by its eight blocks, the reference's by its run read one operation at a time. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact (Cert.ReferenceIdeal.Read.val_main_v23_eq _ _ _ _ _ _).trans (Cert.ReferenceIdeal.Score.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
